-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S26x39934 : Shape := ⟨2, ![26, 39934]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_

variable [Facts]

def fn {F : FTy → Type} [FloatOps F] (main_arg0 : FVec F S200000x64 .f32) (main_arg1 : FVec F S27x64x64 .f32) (main_arg2 : IVec S26x39934 32) (main_arg3 : IVec S26x39934 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  main_v8
-- ==== Kernel.lean ====
abbrev S200000x64 : Shape := ⟨2, ![200000, 64]⟩
abbrev S27x64x64 : Shape := ⟨3, ![27, 64, 64]⟩
abbrev S26x39934 : Shape := ⟨2, ![26, 39934]⟩
abbrev S1x64x64 : Shape := ⟨3, ![1, 64, 64]⟩
abbrev S64x64 : Shape := ⟨2, ![64, 64]⟩
abbrev S13x64x64 : Shape := ⟨3, ![13, 64, 64]⟩
abbrev S26x64x64 : Shape := ⟨3, ![26, 64, 64]⟩
abbrev S_ : Shape := ⟨0, ![]⟩
abbrev S26x39934x1 : Shape := ⟨3, ![26, 39934, 1]⟩
abbrev S26x39934x64 : Shape := ⟨3, ![26, 39934, 64]⟩
abbrev S26x40960x64 : Shape := ⟨3, ![26, 40960, 64]⟩
abbrev S1x5120x64 : Shape := ⟨3, ![1, 5120, 64]⟩
abbrev S5120x64 : Shape := ⟨2, ![5120, 64]⟩
abbrev S8000x64 : Shape := ⟨2, ![8000, 64]⟩
abbrev S1038284 : Shape := ⟨1, ![1038284]⟩
abbrev S1038284x64 : Shape := ⟨2, ![1038284, 64]⟩
abbrev S1038284x1 : Shape := ⟨2, ![1038284, 1]⟩

abbrev nBuf : Space → Nat
  | .hbm => 50
  | .vmem => 11
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S26x39934, .i32⟩
  | .hbm, ⟨3, _⟩ => ⟨S26x39934, .i32⟩
  | .hbm, ⟨4, _⟩ => ⟨S1x64x64, .f32⟩
  | .hbm, ⟨5, _⟩ => ⟨S64x64, .f32⟩
  | .hbm, ⟨6, _⟩ => ⟨S13x64x64, .f32⟩
  | .hbm, ⟨7, _⟩ => ⟨S13x64x64, .f32⟩
  | .hbm, ⟨8, _⟩ => ⟨S26x64x64, .f32⟩
  | .hbm, ⟨9, _⟩ => ⟨S_, .i32⟩
  | .hbm, ⟨10, _⟩ => ⟨S26x39934, .i32⟩
  | .hbm, ⟨11, _⟩ => ⟨S26x39934, .i1⟩
  | .hbm, ⟨12, _⟩ => ⟨S_, .i32⟩
  | .hbm, ⟨13, _⟩ => ⟨S_, .i32⟩
  | .hbm, ⟨14, _⟩ => ⟨S26x39934, .i32⟩
  | .hbm, ⟨15, _⟩ => ⟨S26x39934, .i32⟩
  | .hbm, ⟨16, _⟩ => ⟨S_, .i32⟩
  | .hbm, ⟨17, _⟩ => ⟨S26x39934, .i32⟩
  | .hbm, ⟨18, _⟩ => ⟨S26x39934, .i1⟩
  | .hbm, ⟨19, _⟩ => ⟨S_, .i32⟩
  | .hbm, ⟨20, _⟩ => ⟨S26x39934, .i32⟩
  | .hbm, ⟨21, _⟩ => ⟨S26x39934, .i32⟩
  | .hbm, ⟨22, _⟩ => ⟨S26x39934, .i32⟩
  | .hbm, ⟨23, _⟩ => ⟨S26x39934x1, .i32⟩
  | .hbm, ⟨24, _⟩ => ⟨S26x39934x64, .f32⟩
  | .hbm, ⟨25, _⟩ => ⟨S26x39934x1, .i1⟩
  | .hbm, ⟨26, _⟩ => ⟨S26x39934x1, .f32⟩
  | .hbm, ⟨27, _⟩ => ⟨S26x39934x64, .f32⟩
  | .hbm, ⟨28, _⟩ => ⟨S26x39934x64, .f32⟩
  | .hbm, ⟨29, _⟩ => ⟨S_, .i32⟩
  | .hbm, ⟨30, _⟩ => ⟨S_, .f32⟩
  | .hbm, ⟨31, _⟩ => ⟨S26x40960x64, .f32⟩
  | .hbm, ⟨32, _⟩ => ⟨S26x40960x64, .f32⟩
  | .hbm, ⟨33, _⟩ => ⟨S26x39934x64, .f32⟩
  | .hbm, ⟨34, _⟩ => ⟨S200000x64, .f32⟩
  | .hbm, ⟨35, _⟩ => ⟨S_, .i32⟩
  | .hbm, ⟨36, _⟩ => ⟨S_, .i32⟩
  | .hbm, ⟨37, _⟩ => ⟨S26x39934, .i32⟩
  | .hbm, ⟨38, _⟩ => ⟨S26x39934, .i32⟩
  | .hbm, ⟨39, _⟩ => ⟨S1038284, .i32⟩
  | .hbm, ⟨40, _⟩ => ⟨S1038284x64, .f32⟩
  | .hbm, ⟨41, _⟩ => ⟨S_, .i32⟩
  | .hbm, ⟨42, _⟩ => ⟨S1038284, .i32⟩
  | .hbm, ⟨43, _⟩ => ⟨S1038284, .i1⟩
  | .hbm, ⟨44, _⟩ => ⟨S_, .i32⟩
  | .hbm, ⟨45, _⟩ => ⟨S1038284, .i32⟩
  | .hbm, ⟨46, _⟩ => ⟨S1038284, .i32⟩
  | .hbm, ⟨47, _⟩ => ⟨S1038284, .i32⟩
  | .hbm, ⟨48, _⟩ => ⟨S1038284x1, .i32⟩
  | .hbm, ⟨49, _⟩ => ⟨S200000x64, .f32⟩
  | .local _ .vmem, ⟨0, _⟩ => ⟨S1x5120x64, .f32⟩
  | .local _ .vmem, ⟨1, _⟩ => ⟨S1x5120x64, .f32⟩
  | .local _ .vmem, ⟨2, _⟩ => ⟨S1x64x64, .f32⟩
  | .local _ .vmem, ⟨3, _⟩ => ⟨S1x64x64, .f32⟩
  | .local _ .vmem, ⟨4, _⟩ => ⟨S1x5120x64, .f32⟩
  | .local _ .vmem, ⟨5, _⟩ => ⟨S1x5120x64, .f32⟩
  | .local _ .vmem, ⟨6, _⟩ => ⟨S8000x64, .f32⟩
  | .local _ .vmem, ⟨7, _⟩ => ⟨S8000x64, .f32⟩
  | .local _ .vmem, ⟨8, _⟩ => ⟨S64x64, .f32⟩
  | .local _ .vmem, ⟨9, _⟩ => ⟨S8000x64, .f32⟩
  | .local _ .vmem, ⟨10, _⟩ => ⟨S8000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![26, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5120x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5120x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S27x64x64_S1x64x64_13_0_0 : S27x64x64.Slices ![13, 0, 0] S1x64x64
  shapeCasts_S1x64x64_S64x64 : S1x64x64.ShapeCasts S64x64
  slices_S27x64x64_S13x64x64_0_0_0 : S27x64x64.Slices ![0, 0, 0] S13x64x64
  slices_S27x64x64_S13x64x64_14_0_0 : S27x64x64.Slices ![14, 0, 0] S13x64x64
  concatenates_S13x64x64_S13x64x64_S26x64x64_d0 : Shape.Concatenates [S13x64x64, S13x64x64] S26x64x64 0
  bcast_S_S26x39934 : S_.BroadcastsInDim S26x39934 (![] : Fin 0 → Fin S26x39934.rank)
  bcast_S26x39934_S26x39934x1_0_1 : S26x39934.BroadcastsInDim S26x39934x1 (![0, 1] : Fin 2 → Fin S26x39934x1.rank)
  bcast_S26x39934x1_S26x39934x64_0_1_2 : S26x39934x1.BroadcastsInDim S26x39934x64 (![0, 1, 2] : Fin 3 → Fin S26x39934x64.rank)
  pads_S26x39934x64_S26x40960x64_000_010260_000 : S26x39934x64.Pads (![0, 0, 0] : Fin 3 → Nat) ![0, 1026, 0] ![0, 0, 0] S26x40960x64
  h_S_ : 0 < S_.numel
  inb_S1x5120x64_S1x5120x64_0_0_0 : ∀ a, (![0, 0, 0] : Fin 3 → Nat) a + S1x5120x64.size a ≤ S1x5120x64.size a
  h_S1x5120x64 : 0 < S1x5120x64.numel
  shapeCasts_S1x5120x64_S5120x64 : S1x5120x64.ShapeCasts S5120x64
  inb_S1x64x64_S1x64x64_0_0_0 : ∀ a, (![0, 0, 0] : Fin 3 → Nat) a + S1x64x64.size a ≤ S1x64x64.size a
  h_S1x64x64 : 0 < S1x64x64.numel
  shapeCasts_S5120x64_S1x5120x64 : S5120x64.ShapeCasts S1x5120x64
  slices_S26x40960x64_S26x39934x64_0_0_0 : S26x40960x64.Slices ![0, 0, 0] S26x39934x64
  inb_S8000x64_S8000x64_0_0 : ∀ a, (![0, 0] : Fin 2 → Nat) a + S8000x64.size a ≤ S8000x64.size a
  h_S8000x64 : 0 < S8000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S26x39934_S1038284 : S26x39934.ShapeCasts S1038284
  shapeCasts_S26x39934x64_S1038284x64 : S26x39934x64.ShapeCasts S1038284x64
  bcast_S_S1038284 : S_.BroadcastsInDim S1038284 (![] : Fin 0 → Fin S1038284.rank)
  bcast_S1038284_S1038284x1_0 : S1038284.BroadcastsInDim S1038284x1 (![0] : Fin 1 → Fin S1038284x1.rank)
  gather_S200000x64_S26x39934x1_S26x39934x64_2_0_n_n_0_2_164_wf : GatherDims.WF S200000x64 S26x39934x1 S26x39934x64 [2] [0] [] [0] [] 2 ![1, 64]
  dot_S5120x64_S64x64_S5120x64_1_0_0_1_n_n_wf : DotDims.WF S5120x64 S64x64 S5120x64 [1] [0] [0] [1] [] []
  dot_S8000x64_S64x64_S8000x64_1_0_0_1_n_n_wf : DotDims.WF S8000x64 S64x64 S8000x64 [1] [0] [0] [1] [] []
  scatter_S200000x64_S1038284x1_S1038284x64_1_0_0_1_wf : ScatterDims.WF S200000x64 S1038284x1 S1038284x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5120x64.size a ≤ S26x40960x64.size a
  hwx0_0 : ∀ i : grid0.Coords, EltTy.bits .f32 = 32 ∨ (Rect.block (s := S26x40960x64) S1x5120x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S26x64x64.size a
  hwx0_1 : ∀ i : grid0.Coords, EltTy.bits .f32 = 32 ∨ (Rect.block (s := S26x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5120x64.size a ≤ S26x40960x64.size a
  hwx0_2 : ∀ i : grid0.Coords, EltTy.bits .f32 = 32 ∨ (Rect.block (s := S26x40960x64) S1x5120x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S200000x64.size a
  hwx1_0 : ∀ i : grid1.Coords, EltTy.bits .f32 = 32 ∨ (Rect.block (s := S200000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S200000x64.size a
  hwx1_2 : ∀ i : grid1.Coords, EltTy.bits .f32 = 32 ∨ (Rect.block (s := S200000x64) S8000x64.size (cc1_transform_2 i) (hinb1_2 i)).WholeWords (EltTy.packing .f32)

variable [Facts₀]

def gather_S200000x64_S26x39934x1_S26x39934x64_2_0_n_n_0_2_164 : GatherDims S200000x64 S26x39934x1 S26x39934x64 where
  offsetDims := [2]
  collapsedSliceDims := [0]
  operandBatchingDims := []
  startIndicesBatchingDims := []
  startIndexMap := [0]
  indexVectorDim := 2
  sliceSizes := ![1, 64]
  wf := gather_S200000x64_S26x39934x1_S26x39934x64_2_0_n_n_0_2_164_wf
def dot_S5120x64_S64x64_S5120x64_1_0_0_1_n_n : DotDims S5120x64 S64x64 S5120x64 where
  lhsContracting := [1]
  rhsContracting := [0]
  lhsNonContracting := [0]
  rhsNonContracting := [1]
  lhsBatch := []
  rhsBatch := []
  wf := dot_S5120x64_S64x64_S5120x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S200000x64_S1038284x1_S1038284x64_1_0_0_1 : ScatterDims S200000x64 S1038284x1 S1038284x64 where
  updateWindowDims := [1]
  insertedWindowDims := [0]
  scatterDimsToOperandDims := [0]
  indexVectorDim := 1
  wf := scatter_S200000x64_S1038284x1_S1038284x64_1_0_0_1_wf

abbrev win0_0 : Pipeline.Window sig grid0 :=
  Pipeline.Window.ofSpec (Memref.whole main_v19) S1x5120x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x5120x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S26x39934 : Shape := ⟨2, ![26, 39934]⟩
abbrev S13x64x64 : Shape := ⟨3, ![13, 64, 64]⟩
abbrev S26x64x64 : Shape := ⟨3, ![26, 64, 64]⟩
abbrev S_ : Shape := ⟨0, ![]⟩
abbrev S26x39934x1 : Shape := ⟨3, ![26, 39934, 1]⟩
abbrev S26x39934x64 : Shape := ⟨3, ![26, 39934, 64]⟩
abbrev S1x64x64 : Shape := ⟨3, ![1, 64, 64]⟩
abbrev S64x64 : Shape := ⟨2, ![64, 64]⟩
abbrev S1038284 : Shape := ⟨1, ![1038284]⟩
abbrev S1038284x64 : Shape := ⟨2, ![1038284, 64]⟩
abbrev S1038284x1 : Shape := ⟨2, ![1038284, 1]⟩

abbrev nBuf : Space → Nat
  | .hbm => 46
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S26x39934, .i32⟩
  | .hbm, ⟨3, _⟩ => ⟨S26x39934, .i32⟩
  | .hbm, ⟨4, _⟩ => ⟨S13x64x64, .f32⟩
  | .hbm, ⟨5, _⟩ => ⟨S13x64x64, .f32⟩
  | .hbm, ⟨6, _⟩ => ⟨S26x64x64, .f32⟩
  | .hbm, ⟨7, _⟩ => ⟨S_, .i32⟩
  | .hbm, ⟨8, _⟩ => ⟨S26x39934, .i32⟩
  | .hbm, ⟨9, _⟩ => ⟨S26x39934, .i1⟩
  | .hbm, ⟨10, _⟩ => ⟨S_, .i32⟩
  | .hbm, ⟨11, _⟩ => ⟨S_, .i32⟩
  | .hbm, ⟨12, _⟩ => ⟨S26x39934, .i32⟩
  | .hbm, ⟨13, _⟩ => ⟨S26x39934, .i32⟩
  | .hbm, ⟨14, _⟩ => ⟨S_, .i32⟩
  | .hbm, ⟨15, _⟩ => ⟨S26x39934, .i32⟩
  | .hbm, ⟨16, _⟩ => ⟨S26x39934, .i1⟩
  | .hbm, ⟨17, _⟩ => ⟨S_, .i32⟩
  | .hbm, ⟨18, _⟩ => ⟨S26x39934, .i32⟩
  | .hbm, ⟨19, _⟩ => ⟨S26x39934, .i32⟩
  | .hbm, ⟨20, _⟩ => ⟨S26x39934, .i32⟩
  | .hbm, ⟨21, _⟩ => ⟨S26x39934x1, .i32⟩
  | .hbm, ⟨22, _⟩ => ⟨S26x39934x64, .f32⟩
  | .hbm, ⟨23, _⟩ => ⟨S26x39934x1, .i1⟩
  | .hbm, ⟨24, _⟩ => ⟨S26x39934x1, .f32⟩
  | .hbm, ⟨25, _⟩ => ⟨S26x39934x64, .f32⟩
  | .hbm, ⟨26, _⟩ => ⟨S26x39934x64, .f32⟩
  | .hbm, ⟨27, _⟩ => ⟨S26x39934x64, .f32⟩
  | .hbm, ⟨28, _⟩ => ⟨S1x64x64, .f32⟩
  | .hbm, ⟨29, _⟩ => ⟨S64x64, .f32⟩
  | .hbm, ⟨30, _⟩ => ⟨S200000x64, .f32⟩
  | .hbm, ⟨31, _⟩ => ⟨S_, .i32⟩
  | .hbm, ⟨32, _⟩ => ⟨S_, .i32⟩
  | .hbm, ⟨33, _⟩ => ⟨S26x39934, .i32⟩
  | .hbm, ⟨34, _⟩ => ⟨S26x39934, .i32⟩
  | .hbm, ⟨35, _⟩ => ⟨S1038284, .i32⟩
  | .hbm, ⟨36, _⟩ => ⟨S1038284x64, .f32⟩
  | .hbm, ⟨37, _⟩ => ⟨S_, .i32⟩
  | .hbm, ⟨38, _⟩ => ⟨S1038284, .i32⟩
  | .hbm, ⟨39, _⟩ => ⟨S1038284, .i1⟩
  | .hbm, ⟨40, _⟩ => ⟨S_, .i32⟩
  | .hbm, ⟨41, _⟩ => ⟨S1038284, .i32⟩
  | .hbm, ⟨42, _⟩ => ⟨S1038284, .i32⟩
  | .hbm, ⟨43, _⟩ => ⟨S1038284, .i32⟩
  | .hbm, ⟨44, _⟩ => ⟨S1038284x1, .i32⟩
  | .hbm, ⟨45, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  slices_S27x64x64_S13x64x64_0_0_0 : S27x64x64.Slices ![0, 0, 0] S13x64x64
  slices_S27x64x64_S13x64x64_14_0_0 : S27x64x64.Slices ![14, 0, 0] S13x64x64
  concatenates_S13x64x64_S13x64x64_S26x64x64_d0 : Shape.Concatenates [S13x64x64, S13x64x64] S26x64x64 0
  bcast_S_S26x39934 : S_.BroadcastsInDim S26x39934 (![] : Fin 0 → Fin S26x39934.rank)
  bcast_S26x39934_S26x39934x1_0_1 : S26x39934.BroadcastsInDim S26x39934x1 (![0, 1] : Fin 2 → Fin S26x39934x1.rank)
  bcast_S26x39934x1_S26x39934x64_0_1_2 : S26x39934x1.BroadcastsInDim S26x39934x64 (![0, 1, 2] : Fin 3 → Fin S26x39934x64.rank)
  slices_S27x64x64_S1x64x64_13_0_0 : S27x64x64.Slices ![13, 0, 0] S1x64x64
  shapeCasts_S1x64x64_S64x64 : S1x64x64.ShapeCasts S64x64
  shapeCasts_S26x39934_S1038284 : S26x39934.ShapeCasts S1038284
  shapeCasts_S26x39934x64_S1038284x64 : S26x39934x64.ShapeCasts S1038284x64
  bcast_S_S1038284 : S_.BroadcastsInDim S1038284 (![] : Fin 0 → Fin S1038284.rank)
  bcast_S1038284_S1038284x1_0 : S1038284.BroadcastsInDim S1038284x1 (![0] : Fin 1 → Fin S1038284x1.rank)
  gather_S200000x64_S26x39934x1_S26x39934x64_2_0_n_n_0_2_164_wf : GatherDims.WF S200000x64 S26x39934x1 S26x39934x64 [2] [0] [] [0] [] 2 ![1, 64]
  dot_S26x39934x64_S26x64x64_S26x39934x64_2_1_1_2_0_0_wf : DotDims.WF S26x39934x64 S26x64x64 S26x39934x64 [2] [1] [1] [2] [0] [0]
  dot_S200000x64_S64x64_S200000x64_1_0_0_1_n_n_wf : DotDims.WF S200000x64 S64x64 S200000x64 [1] [0] [0] [1] [] []
  scatter_S200000x64_S1038284x1_S1038284x64_1_0_0_1_wf : ScatterDims.WF S200000x64 S1038284x1 S1038284x64 [1] [0] [0] 1

variable [Facts₀]

def gather_S200000x64_S26x39934x1_S26x39934x64_2_0_n_n_0_2_164 : GatherDims S200000x64 S26x39934x1 S26x39934x64 where
  offsetDims := [2]
  collapsedSliceDims := [0]
  operandBatchingDims := []
  startIndicesBatchingDims := []
  startIndexMap := [0]
  indexVectorDim := 2
  sliceSizes := ![1, 64]
  wf := gather_S200000x64_S26x39934x1_S26x39934x64_2_0_n_n_0_2_164_wf
def dot_S26x39934x64_S26x64x64_S26x39934x64_2_1_1_2_0_0 : DotDims S26x39934x64 S26x64x64 S26x39934x64 where
  lhsContracting := [2]
  rhsContracting := [1]
  lhsNonContracting := [1]
  rhsNonContracting := [2]
  lhsBatch := [0]
  rhsBatch := [0]
  wf := dot_S26x39934x64_S26x64x64_S26x39934x64_2_1_1_2_0_0_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S200000x64_S1038284x1_S1038284x64_1_0_0_1 : ScatterDims S200000x64 S1038284x1 S1038284x64 where
  updateWindowDims := [1]
  insertedWindowDims := [0]
  scatterDimsToOperandDims := [0]
  indexVectorDim := 1
  wf := scatter_S200000x64_S1038284x1_S1038284x64_1_0_0_1_wf

class Facts : Prop extends Facts₀ where

variable [Facts]
-- ==== Proof.Gemm.lean ====
/-
  A TensorCore matrix product into a zero accumulator, read at an entry, over the extended reals.

  Both kernels of this program are one `tpu.matmul` of a row block `x : [R, 64]` with a weight `w : [64, 64]`,
  contracting the block's second axis with the weight's first, the accumulator the zero splat. At the ideal instance
  the product's entry `(p, o)` is the exact sum `∑ k, x[p, k] · w[k, o]` over the 64 channels; the contraction index
  of the dimension numbers is a one-axis index, identified with `Fin 64`. Stated for the row extent of each kernel:
  5120 rows per block for the offset products, 8000 for the centre product.
-/
import proofs.«409391_j65807488909370_4_alg».proof.Proof.Gen.KernelIdeal
import Idealize.ShloMosaic.Lib.ValueIdx
import Idealize.ShloMosaic.PureOps.Ideal.Laws

noncomputable section

namespace Cert.KernelIdeal.Gemm

open Cert.KernelIdeal Cert.KernelIdeal.Gen Idealize.ShloMosaic Idealize.ShloMosaic.TcCoe Idealize.ShloMosaic.ValueIdx

/-! ## The offset product: a `[5120, 64]` block of gathered rows with one offset's `[64, 64]` weight -/

theorem lhs_off_0 (i : S5120x64.Idx) (q : dot_S5120x64_S64x64_S5120x64_1_0_0_1_n_n.contr.Idx) :
    (dot_S5120x64_S64x64_S5120x64_1_0_0_1_n_n.lhsIdx i q 0).val = (i 0).val := by
  unfold DotDims.lhsIdx
  rw [dif_neg (show ¬(0 : Fin S5120x64.rank) ∈ dot_S5120x64_S64x64_S5120x64_1_0_0_1_n_n.lhsBatch by decide), dif_pos (show (0 : Fin S5120x64.rank) ∈ dot_S5120x64_S64x64_S5120x64_1_0_0_1_n_n.lhsNonContracting by decide)]
  rfl
theorem lhs_off_1 (i : S5120x64.Idx) (q : dot_S5120x64_S64x64_S5120x64_1_0_0_1_n_n.contr.Idx) :
    (dot_S5120x64_S64x64_S5120x64_1_0_0_1_n_n.lhsIdx i q 1).val = (q ⟨0, by decide⟩).val :=
  dot_S5120x64_S64x64_S5120x64_1_0_0_1_n_n.lhsIdx_val_of_single rfl i q
theorem rhs_off_0 (i : S5120x64.Idx) (q : dot_S5120x64_S64x64_S5120x64_1_0_0_1_n_n.contr.Idx) :
    (dot_S5120x64_S64x64_S5120x64_1_0_0_1_n_n.rhsIdx i q 0).val = (q ⟨0, by decide⟩).val :=
  dot_S5120x64_S64x64_S5120x64_1_0_0_1_n_n.rhsIdx_val_of_single rfl i q
theorem rhs_off_1 (i : S5120x64.Idx) (q : dot_S5120x64_S64x64_S5120x64_1_0_0_1_n_n.contr.Idx) :
    (dot_S5120x64_S64x64_S5120x64_1_0_0_1_n_n.rhsIdx i q 1).val = (i 1).val := by
  unfold DotDims.rhsIdx
  rw [dif_neg (show ¬(1 : Fin S64x64.rank) ∈ dot_S5120x64_S64x64_S5120x64_1_0_0_1_n_n.rhsBatch by decide), dif_pos (show (1 : Fin S64x64.rank) ∈ dot_S5120x64_S64x64_S5120x64_1_0_0_1_n_n.rhsNonContracting by decide)]
  rfl

/-- Entry `(p, o)` of the offset product: the sum over the 64 input channels `k` of row `p` of the block at `k` times
    column `o` of the weight at `k`. -/
theorem matmul_off_apply (x : FVec Ideal S5120x64 .f32) (w : FVec Ideal S64x64 .f32) (i : S5120x64.Idx) (p : Fin 5120) (o : Fin 64)
    (hp : (i 0).val = p.val) (ho : (i 1).val = o.val) :
    matmul (F := Ideal) dot_S5120x64_S64x64_S5120x64_1_0_0_1_n_n (some .fp32) x w (constant S5120x64 .f32 0x00000000#32) i
      = ∑ k : Fin 64, x (ix2 p k) * w (ix2 k o) := by
  refine (Ideal.matmul_constant_zero_apply dot_S5120x64_S64x64_S5120x64_1_0_0_1_n_n (some .fp32) x w i).trans ?_
  rw [← Equiv.sum_comp (ValueIdx.contrEquiv1 dot_S5120x64_S64x64_S5120x64_1_0_0_1_n_n 64 rfl rfl).symm]
  refine Finset.sum_congr rfl fun k _ => ?_
  have hk := ValueIdx.contrEquiv1_symm_val dot_S5120x64_S64x64_S5120x64_1_0_0_1_n_n 64 rfl rfl k
  have el : dot_S5120x64_S64x64_S5120x64_1_0_0_1_n_n.lhsIdx i ((ValueIdx.contrEquiv1 dot_S5120x64_S64x64_S5120x64_1_0_0_1_n_n 64 rfl rfl).symm k) = ix2 p k := funext fun a => Fin.ext (by
    match a with
    | ⟨0, _⟩ => exact (lhs_off_0 _ _).trans hp
    | ⟨1, _⟩ => exact (lhs_off_1 _ _).trans hk)
  have er : dot_S5120x64_S64x64_S5120x64_1_0_0_1_n_n.rhsIdx i ((ValueIdx.contrEquiv1 dot_S5120x64_S64x64_S5120x64_1_0_0_1_n_n 64 rfl rfl).symm k) = ix2 k o := funext fun a => Fin.ext (by
    match a with
    | ⟨0, _⟩ => exact (rhs_off_0 _ _).trans hk
    | ⟨1, _⟩ => exact (rhs_off_1 _ _).trans ho)
  rw [el, er]

/-! ## The centre product: an `[8000, 64]` block of feature rows with the centre offset's `[64, 64]` weight -/

theorem lhs_ctr_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_ctr_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_ctr_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_ctr_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- Entry `(p, o)` of the centre product: the sum over the 64 input channels `k` of feature row `p` at `k` times
    column `o` of the centre weight at `k`. -/
theorem matmul_ctr_apply (x : FVec Ideal S8000x64 .f32) (w : FVec Ideal S64x64 .f32) (i : S8000x64.Idx) (p : Fin 8000) (o : Fin 64)
    (hp : (i 0).val = p.val) (ho : (i 1).val = o.val) :
    matmul (F := Ideal) dot_S8000x64_S64x64_S8000x64_1_0_0_1_n_n (some .fp32) x w (constant S8000x64 .f32 0x00000000#32) i
      = ∑ k : Fin 64, x (ix2 p k) * w (ix2 k o) := by
  refine (Ideal.matmul_constant_zero_apply dot_S8000x64_S64x64_S8000x64_1_0_0_1_n_n (some .fp32) x w i).trans ?_
  rw [← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx i ((ValueIdx.contrEquiv1 dot_S8000x64_S64x64_S8000x64_1_0_0_1_n_n 64 rfl rfl).symm k) = ix2 p k := funext fun a => Fin.ext (by
    match a with
    | ⟨0, _⟩ => exact (lhs_ctr_0 _ _).trans hp
    | ⟨1, _⟩ => exact (lhs_ctr_1 _ _).trans hk)
  have er : dot_S8000x64_S64x64_S8000x64_1_0_0_1_n_n.rhsIdx i ((ValueIdx.contrEquiv1 dot_S8000x64_S64x64_S8000x64_1_0_0_1_n_n 64 rfl rfl).symm k) = ix2 k o := funext fun a => Fin.ext (by
    match a with
    | ⟨0, _⟩ => exact (rhs_ctr_0 _ _).trans hk
    | ⟨1, _⟩ => exact (rhs_ctr_1 _ _).trans ho)
  rw [el, er]

end Cert.KernelIdeal.Gemm

end
-- ==== Proof.OffsetRegion.lean ====
/-
  The offset-product region: what its output array holds when the region ends.

  The region's grid is 26 offsets × 8 row blocks. At point (g, b) the body loads rows 5120·b … 5120·b + 5119 of offset
  g's padded gathered rows (a [1, 5120, 64] block) and offset g's [1, 64, 64] weight, multiplies them into a zero
  accumulator, and stores the [1, 5120, 64] product, which the pipeline writes back to block (g, b, 0) of the
  output. So the output array ends, at entry (g, p, o), at the sum over the 64 channels k of X[g, p, k] · W[g, k, o],
  X the padded gathered rows and W the offset weights as the region finds them: the blocks tile the output, every
  block is the restriction of that one function, and each input block a point reads is the rows of X (the slice of W)
  the output block's entries need.
-/
import proofs.«409391_j65807488909370_4_alg».proof.Proof.Gen.KernelIdeal.Frame
import proofs.«409391_j65807488909370_4_alg».proof.Proof.Gemm
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Offsets

open Cert.KernelIdeal Cert.KernelIdeal.Gen

/-- The batched product of the padded gathered rows `X : [26, 40960, 64]` with the offset weights `W : [26, 64, 64]`:
    entry (g, p, o) is `∑ k, X[g, p, k] · W[g, k, o]`. -/
def prod (X : S26x40960x64.Idx → EReal) (W : S26x64x64.Idx → EReal) : S26x40960x64.Idx → EReal :=
  fun i => ∑ k : Fin 64, X (ix3 (⟨(i 0).val, (i 0).isLt⟩ : Fin 26) (⟨(i 1).val, (i 1).isLt⟩ : Fin 40960) k)
    * W (ix3 (⟨(i 0).val, (i 0).isLt⟩ : Fin 26) k (⟨(i 2).val, (i 2).isLt⟩ : Fin 64))

theorem hz3 : (![0, 0, 0] : Fin 3 → Nat) = fun _ => 0 := funext fun a => by fin_cases a <;> rfl

/-- The body's stored value at entry (u, p, o) of its block: row p of the loaded rows against column o of the loaded
    weight, the two unit axes dropped and put back by the shape casts. -/
theorem pay_ix3 (x0 : Vec Ideal S1x5120x64 .f32) (x1 : Vec Ideal S1x64x64 .f32) (u : Fin 1) (p : Fin 5120) (o : Fin 64) :
    k0_pay1 (F := Ideal) x0 x1 (ix3 u p o) = ∑ k : Fin 64, x0 (ix3 (0 : Fin 1) p k) * x1 (ix3 (0 : Fin 1) k o) := by
  unfold k0_pay1
  refine (shapeCast_ab_1ab_apply _ _ u p o).trans ?_
  refine (Gemm.matmul_off_apply _ _ (ix2 p o) p o rfl rfl).trans ?_
  refine Finset.sum_congr rfl fun k _ => ?_
  rw [shapeCast_1ab_ab_apply, shapeCast_1ab_ab_apply]

/-- The same at any entry `j` of the block, its coordinates read off `j`. -/
theorem pay_apply (x0 : Vec Ideal S1x5120x64 .f32) (x1 : Vec Ideal S1x64x64 .f32) (j : S1x5120x64.Idx) :
    k0_pay1 (F := Ideal) x0 x1 j
      = ∑ k : Fin 64, x0 (ix3 (0 : Fin 1) (⟨(j 1).val, (j 1).isLt⟩ : Fin 5120) k) * x1 (ix3 (0 : Fin 1) k (⟨(j 2).val, (j 2).isLt⟩ : Fin 64)) := by
  have hj : j = ix3 (⟨(j 0).val, (j 0).isLt⟩ : Fin 1) (⟨(j 1).val, (j 1).isLt⟩ : Fin 5120) (⟨(j 2).val, (j 2).isLt⟩ : Fin 64) := by
    funext a; match a with | ⟨0, _⟩ => rfl | ⟨1, _⟩ => rfl | ⟨2, _⟩ => rfl
  exact (congrArg (k0_pay1 (F := Ideal) x0 x1) hj).trans (pay_ix3 x0 x1 _ _ _)

/-! ## The index maps over the grid -/

/-- The three windows' block indices at a point: the rows and the output move together over (offset, row block) and
    sit at lane block 0; the weight moves with the offset only; the output's indices stay inside its 26 × 8 blocks. -/
theorem idx_facts : ∀ t : Fin cfg0.N,
      win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) < 26
    ∧ win0_2.index t (1 : Fin 3) < 8 :=
  (by decide +kernel : ∀ t : Fin grid0.N, _)

/-- Every (offset, row block) pair is some point's output block. -/
theorem idx_onto : ∀ (q0 : Fin 26) (q1 : Fin 8), ∃ t : Fin cfg0.N, win0_2.index t = ![q0.val, q1.val, 0] :=
  (by decide +kernel : ∀ (q0 : Fin 26) (q1 : Fin 8), ∃ t : Fin grid0.N, win0_2.index t = ![q0.val, q1.val, 0])

/-! ## The blocks a point reads, as entries of the arrays the region finds -/

variable (V : (c : Dev nD) → (b : Ref sig .tc) → Buf (Elt Ideal) ((c : Thread nD τ).loc b))

/-- Entry `y` of the rows' block at point `t` is the padded gathered rows at block index × block size + `y`. -/
theorem rows_read (c : Dev nD) (t : Fin cfg0.N) (y : S1x5120x64.Idx) (i : S26x40960x64.Idx)
    (h0 : (i 0).val = win0_0.index t (0 : Fin 3) * 1 + (y 0).val)
    (h1 : (i 1).val = win0_0.index t (1 : Fin 3) * 5120 + (y 1).val)
    (h2 : (i 2).val = win0_0.index t (2 : Fin 3) * 64 + (y 2).val) :
    (iblk0 V c 0 t : Vec Ideal S1x5120x64 .f32) y = (V c main_v19 : S26x40960x64.Idx → EReal) i := by
  unfold iblk0
  rw [View.read_apply]
  show V c main_v19 _ = V c main_v19 _
  congr 1
  funext a
  apply Fin.ext
  match a with
  | ⟨0, _⟩ => show win0_0.index t (0 : Fin 3) * 1 + 1 * (y 0).val = (i 0).val; omega
  | ⟨1, _⟩ => show win0_0.index t (1 : Fin 3) * 5120 + 1 * (y 1).val = (i 1).val; omega
  | ⟨2, _⟩ => show win0_0.index t (2 : Fin 3) * 64 + 1 * (y 2).val = (i 2).val; omega

/-- Entry `y` of the weight's block at point `t` is the offset weights at block index × block size + `y`. -/
theorem weight_read (c : Dev nD) (t : Fin cfg0.N) (y : S1x64x64.Idx) (i : S26x64x64.Idx)
    (h0 : (i 0).val = win0_1.index t (0 : Fin 3) * 1 + (y 0).val)
    (h1 : (i 1).val = win0_1.index t (1 : Fin 3) * 64 + (y 1).val)
    (h2 : (i 2).val = win0_1.index t (2 : Fin 3) * 64 + (y 2).val) :
    (iblk0 V c 1 t : Vec Ideal S1x64x64 .f32) y = (V c main_v4 : S26x64x64.Idx → EReal) i := by
  unfold iblk0
  rw [View.read_apply]
  show V c main_v4 _ = V c main_v4 _
  congr 1
  funext a
  apply Fin.ext
  match a with
  | ⟨0, _⟩ => show win0_1.index t (0 : Fin 3) * 1 + 1 * (y 0).val = (i 0).val; omega
  | ⟨1, _⟩ => show win0_1.index t (1 : Fin 3) * 64 + 1 * (y 1).val = (i 1).val; omega
  | ⟨2, _⟩ => show win0_1.index t (2 : Fin 3) * 64 + 1 * (y 2).val = (i 2).val; omega

/-! ## What a point writes back, the cover, the array -/

/-- WHAT POINT `t` WRITES BACK is block `t` of the batched product of the arrays the region finds. -/
theorem flushed_eq (c : Dev nD) (t : Fin cfg0.N) :
    (dat0 V c).flushed 2 t = ((cfg0.win 2).blk t).view.read (Elt Ideal) (prod (V c main_v19) (V c main_v4)) := by
  show (cfg0.win 2).cut (grid0.coords t) ((dat0 V c).after 2 t) = _
  rw [after0_2]
  unfold out0_2
  rw [View.canon_unit_zero hz3]
  simp only [View.ld_unit_zero (S := S1x5120x64) hz3, View.ld_unit_zero (S := S1x64x64) hz3]
  obtain ⟨e0, e1, e2, e3, e4, e5, e6, e7, e8⟩ := idx_facts t
  funext j
  refine (pay_apply (iblk0 V c 0 t) (iblk0 V c 1 t) j).trans ?_
  rw [View.read_apply]
  unfold prod
  have hj0 : (j 0).val < 1 := (j 0).isLt
  have hj1 : (j 1).val < 5120 := (j 1).isLt
  have hj2 : (j 2).val < 64 := (j 2).isLt
  refine Finset.sum_congr rfl fun k _ => ?_
  refine congrArg₂ (· * ·) (rows_read V c t _ _ ?_ ?_ ?_) (weight_read V c t _ _ ?_ ?_ ?_)
  · show win0_2.index t (0 : Fin 3) * 1 + 1 * (j 0).val = win0_0.index t (0 : Fin 3) * 1 + 0; omega
  · show win0_2.index t (1 : Fin 3) * 5120 + 1 * (j 1).val = win0_0.index t (1 : Fin 3) * 5120 + (j 1).val; omega
  · show k.val = win0_0.index t (2 : Fin 3) * 64 + k.val; omega
  · show win0_2.index t (0 : Fin 3) * 1 + 1 * (j 0).val = win0_1.index t (0 : Fin 3) * 1 + 0; omega
  · show k.val = win0_1.index t (1 : Fin 3) * 64 + k.val; omega
  · show win0_2.index t (2 : Fin 3) * 64 + 1 * (j 2).val = win0_1.index t (2 : Fin 3) * 64 + (j 2).val; omega

/-- An index of the output is in point `t`'s block iff each coordinate is in the block's range on its axis. -/
theorem mem_blk (t : Fin cfg0.N) (i : S26x40960x64.Idx) :
    i ∈ ((cfg0.win 2).blk t).view.set ↔ ∀ a : Fin 3, win0_2.index t a * S1x5120x64.size a ≤ (i a).val ∧ (i a).val < win0_2.index t a * S1x5120x64.size a + S1x5120x64.size a := by
  show i ∈ ((View.whole main_v20).slice (win0_2.rect t)).set ↔ _
  rw [View.set_slice_whole, Rect.mem_set_unit]
  exact Iff.rfl

/-- Every entry (g, p, o) of the output lies in the block of the point with offset g and row block p / 5120. -/
theorem cover (i : S26x40960x64.Idx) : ∃ t : Fin cfg0.N, (cfg0.win 2).flush t = true ∧ i ∈ ((cfg0.win 2).blk t).view.set := by
  have h0 : (i 0).val < 26 := (i 0).isLt
  have h1 : (i 1).val < 40960 := (i 1).isLt
  have h2 : (i 2).val < 64 := (i 2).isLt
  obtain ⟨t, ht⟩ := idx_onto ⟨(i 0).val, h0⟩ ⟨(i 1).val / 5120, by omega⟩
  have q0 : win0_2.index t (0 : Fin 3) = (i 0).val := congrFun ht 0
  have q1 : win0_2.index t (1 : Fin 3) = (i 1).val / 5120 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5120 ≤ (i 1).val ∧ (i 1).val < win0_2.index t (1 : Fin 3) * 5120 + 5120; omega
  | ⟨2, _⟩ => show win0_2.index t (2 : Fin 3) * 64 ≤ (i 2).val ∧ (i 2).val < win0_2.index t (2 : Fin 3) * 64 + 64; omega

/-- THE OUTPUT ARRAY when the region ends: the batched product of the rows and weights the region found. -/
theorem final (c : Dev nD) : (dat0 V c).arrAt 2 cfg0.N = prod (V c main_v19) (V c main_v4) :=
  (dat0 V c).arrAt_eq_of_cover 2 (prod (V c main_v19) (V c main_v4)) (fun t _ => flushed_eq V c t) cover

end Cert.KernelIdeal.Offsets

end
-- ==== Proof.CentreRegion.lean ====
/-
  The centre-product region: what its output array holds when the region ends.

  The region's grid is 25 row blocks. At point b the body loads rows 8000·b … 8000·b + 7999 of the features (an
  [8000, 64] block) and the whole [64, 64] centre weight, multiplies them into a zero accumulator, and stores the
  [8000, 64] product, which the pipeline writes back to block (b, 0) of the output. So the output array ends, at
  entry (n, o), at the sum over the 64 channels k of X[n, k] · W[k, o], X the features and W the centre weight as the
  region finds them: the 25 blocks tile the 200000 rows, and each is the restriction of that one function.
-/
import proofs.«409391_j65807488909370_4_alg».proof.Proof.Gen.KernelIdeal.Frame
import proofs.«409391_j65807488909370_4_alg».proof.Proof.Gemm
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Centre

open Cert.KernelIdeal Cert.KernelIdeal.Gen

/-- The product of the features `X : [200000, 64]` with the centre weight `W : [64, 64]`: entry (n, o) is
    `∑ k, X[n, k] · W[k, o]`. -/
def prod (X : S200000x64.Idx → EReal) (W : S64x64.Idx → EReal) : S200000x64.Idx → EReal :=
  fun i => ∑ k : Fin 64, X (ix2 (⟨(i 0).val, (i 0).isLt⟩ : Fin 200000) k) * W (ix2 k (⟨(i 1).val, (i 1).isLt⟩ : Fin 64))

theorem hz2 : (![0, 0] : Fin 2 → Nat) = fun _ => 0 := funext fun a => by fin_cases a <;> rfl

/-- The body's stored value at entry `j` of its block: row `j 0` of the loaded rows against column `j 1` of the loaded
    weight (the weight's shape cast is to its own shape). -/
theorem pay_apply (x0 : Vec Ideal S8000x64 .f32) (x1 : Vec Ideal S64x64 .f32) (j : S8000x64.Idx) :
    k1_pay1 (F := Ideal) x0 x1 j
      = ∑ k : Fin 64, x0 (ix2 (⟨(j 0).val, (j 0).isLt⟩ : Fin 8000) k) * x1 (ix2 k (⟨(j 1).val, (j 1).isLt⟩ : Fin 64)) := by
  unfold k1_pay1
  rw [shapeCast_self]
  exact Gemm.matmul_ctr_apply _ _ j _ _ rfl rfl

/-! ## The index maps over the grid -/

/-- The rows and the output move together over the row blocks at lane block 0; the weight stays at block (0, 0). -/
theorem idx_facts : ∀ t : Fin cfg1.N,
      win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) < 25 :=
  (by decide +kernel : ∀ t : Fin grid1.N, _)

/-- Every row block is some point's output block. -/
theorem idx_onto : ∀ (q0 : Fin 25), ∃ t : Fin cfg1.N, win1_2.index t = ![q0.val, 0] :=
  (by decide +kernel : ∀ (q0 : Fin 25), ∃ t : Fin grid1.N, win1_2.index t = ![q0.val, 0])

/-! ## The blocks a point reads, as entries of the arrays the region finds -/

variable (V : (c : Dev nD) → (b : Ref sig .tc) → Buf (Elt Ideal) ((c : Thread nD τ).loc b))

/-- Entry `y` of the rows' block at point `t` is the features at block index × block size + `y`. -/
theorem rows_read (c : Dev nD) (t : Fin cfg1.N) (y : S8000x64.Idx) (i : S200000x64.Idx)
    (h0 : (i 0).val = win1_0.index t (0 : Fin 2) * 8000 + (y 0).val)
    (h1 : (i 1).val = win1_0.index t (1 : Fin 2) * 64 + (y 1).val) :
    (iblk1 V c 0 t : Vec Ideal S8000x64 .f32) y = (V c main_arg0 : S200000x64.Idx → EReal) i := by
  unfold iblk1
  rw [View.read_apply]
  show V c main_arg0 _ = V c main_arg0 _
  congr 1
  funext a
  apply Fin.ext
  match a with
  | ⟨0, _⟩ => show win1_0.index t (0 : Fin 2) * 8000 + 1 * (y 0).val = (i 0).val; omega
  | ⟨1, _⟩ => show win1_0.index t (1 : Fin 2) * 64 + 1 * (y 1).val = (i 1).val; omega

/-- Entry `y` of the weight's block at point `t` is the centre weight at block index × block size + `y`. -/
theorem weight_read (c : Dev nD) (t : Fin cfg1.N) (y : S64x64.Idx) (i : S64x64.Idx)
    (h0 : (i 0).val = win1_1.index t (0 : Fin 2) * 64 + (y 0).val)
    (h1 : (i 1).val = win1_1.index t (1 : Fin 2) * 64 + (y 1).val) :
    (iblk1 V c 1 t : Vec Ideal S64x64 .f32) y = (V c main_v1 : S64x64.Idx → EReal) i := by
  unfold iblk1
  rw [View.read_apply]
  show V c main_v1 _ = V c main_v1 _
  congr 1
  funext a
  apply Fin.ext
  match a with
  | ⟨0, _⟩ => show win1_1.index t (0 : Fin 2) * 64 + 1 * (y 0).val = (i 0).val; omega
  | ⟨1, _⟩ => show win1_1.index t (1 : Fin 2) * 64 + 1 * (y 1).val = (i 1).val; omega

/-! ## What a point writes back, the cover, the array -/

/-- WHAT POINT `t` WRITES BACK is block `t` of the product of the arrays the region finds. -/
theorem flushed_eq (c : Dev nD) (t : Fin cfg1.N) :
    (dat1 V c).flushed 2 t = ((cfg1.win 2).blk t).view.read (Elt Ideal) (prod (V c main_arg0) (V c main_v1)) := by
  show (cfg1.win 2).cut (grid1.coords t) ((dat1 V c).after 2 t) = _
  rw [after1_2]
  unfold out1_2
  rw [View.canon_unit_zero hz2]
  simp only [View.ld_unit_zero (S := S8000x64) hz2, View.ld_unit_zero (S := S64x64) hz2]
  obtain ⟨e0, e1, e2, e3, e4, e5⟩ := idx_facts t
  funext j
  refine (pay_apply (iblk1 V c 0 t) (iblk1 V c 1 t) j).trans ?_
  rw [View.read_apply]
  unfold prod
  have hj0 : (j 0).val < 8000 := (j 0).isLt
  have hj1 : (j 1).val < 64 := (j 1).isLt
  refine Finset.sum_congr rfl fun k _ => ?_
  refine congrArg₂ (· * ·) (rows_read V c t _ _ ?_ ?_) (weight_read V c t _ _ ?_ ?_)
  · show win1_2.index t (0 : Fin 2) * 8000 + 1 * (j 0).val = win1_0.index t (0 : Fin 2) * 8000 + (j 0).val; omega
  · show k.val = win1_0.index t (1 : Fin 2) * 64 + k.val; omega
  · show k.val = win1_1.index t (0 : Fin 2) * 64 + k.val; omega
  · show win1_2.index t (1 : Fin 2) * 64 + 1 * (j 1).val = win1_1.index t (1 : Fin 2) * 64 + (j 1).val; omega

/-- An index of the output is in point `t`'s block iff each coordinate is in the block's range on its axis. -/
theorem mem_blk (t : Fin cfg1.N) (i : S200000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v22).slice (win1_2.rect t)).set ↔ _
  rw [View.set_slice_whole, Rect.mem_set_unit]
  exact Iff.rfl

/-- Every entry (n, o) of the output lies in the block of the point with row block n / 8000. -/
theorem cover (i : S200000x64.Idx) : ∃ t : Fin cfg1.N, (cfg1.win 2).flush t = true ∧ i ∈ ((cfg1.win 2).blk t).view.set := by
  have h0 : (i 0).val < 200000 := (i 0).isLt
  have h1 : (i 1).val < 64 := (i 1).isLt
  obtain ⟨t, ht⟩ := idx_onto ⟨(i 0).val / 8000, by omega⟩
  have q0 : win1_2.index t (0 : Fin 2) = (i 0).val / 8000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- THE OUTPUT ARRAY when the region ends: the product of the features and the centre weight the region found. -/
theorem final (c : Dev nD) : (dat1 V c).arrAt 2 cfg1.N = prod (V c main_arg0) (V c main_v1) :=
  (dat1 V c).arrAt_eq_of_cover 2 (prod (V c main_arg0) (V c main_v1)) (fun t _ => flushed_eq V c t) cover

end Cert.KernelIdeal.Centre

end
-- ==== Proof.KernelValue.lean ====
/-
  The idealized kernel's result array as a function of the four arguments.

  The last boundary's contents at the result buffer are read back through the ten segments: the final stretch is the
  scatter-add of the reshaped, sliced offset products onto the centre product at the wrapped output rows; the centre
  product is what the second region leaves (the features times the centre weight); the offset products are what the
  first region leaves (the zero-padded masked gathered rows times the 26 offset weights); every other buffer those
  read (the mask, the gathered rows, the weights, the arguments themselves) is untouched by the regions and is the
  host operations' term of the arguments. The host terms are named by the reference's own stages, which are the same
  operations in the same order: the weights `kernel[:13] ++ kernel[14:]` and `kernel[13]`, the mask `imap ≥ 0`, the
  masked gathered rows `feats[where(mask, imap, 0)] · mask`, the wrapped flat output rows.
-/
import proofs.«409391_j65807488909370_4_alg».proof.Proof.Gen.KernelIdeal.Frame
import proofs.«409391_j65807488909370_4_alg».proof.Proof.Gen.ReferenceIdeal.Read
import proofs.«409391_j65807488909370_4_alg».proof.Proof.OffsetRegion
import proofs.«409391_j65807488909370_4_alg».proof.Proof.CentreRegion
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Result

open Cert.KernelIdeal Cert.KernelIdeal.Gen
open Cert.ReferenceIdeal.Read (val_main_v2 val_main_v4 val_main_v16 val_main_v19 val_main_v29)

variable (m : (ℓ : Loc nD τ sig) → Buf (Elt Ideal) ℓ) (ρ : Dev nD → PrngReg)

/-- A buffer the one host operation between the regions (the slice of the offset products) does not write. -/
local macro "kept_by_slice" : tactic =>
  `(tactic| exact StableHlo.after_of_forall_not_mem _ _ (List.forall_iff_forall_mem.mp (by
      simp only [hostOps1, List.Forall, StableHlo.unary_writes, Finset.mem_singleton]
      exact StableHlo.devRef_ne_of_ne (by decide))))

/-- A buffer's contents at the first region's entry, read through the four host stretches before it. -/
local macro "read_entry" : tactic =>
  `(tactic| (after_results_simp <;> (try simp only [TRef.ofBuf, TRef.toBuf, cast_eq]) <;> rfl))

/-! ## At the first region's entry -/

theorem entry_mask (c : Dev nD) :
    W4 m ρ c (Proc.devRef .tc main_v6) = val_main_v4 (F := Ideal) (m ((c : Thread nD τ).loc main_arg2)) := by
  show StableHlo.after hostOps0_3 (StableHlo.after hostOps0_2 (StableHlo.after hostOps0_1 (StableHlo.after hostOps0 (W0 m ρ c)))) (Proc.devRef .tc main_v6) = _
  unfold val_main_v4
  read_entry

theorem entry_omap (c : Dev nD) :
    W4 m ρ c (Proc.devRef .tc main_arg3) = m ((c : Thread nD τ).loc main_arg3) := by
  show StableHlo.after hostOps0_3 (StableHlo.after hostOps0_2 (StableHlo.after hostOps0_1 (StableHlo.after hostOps0 (W0 m ρ c)))) (Proc.devRef .tc main_arg3) = _
  read_entry

theorem entry_feats (c : Dev nD) :
    W4 m ρ c (Proc.devRef .tc main_arg0) = m ((c : Thread nD τ).loc main_arg0) := by
  show StableHlo.after hostOps0_3 (StableHlo.after hostOps0_2 (StableHlo.after hostOps0_1 (StableHlo.after hostOps0 (W0 m ρ c)))) (Proc.devRef .tc main_arg0) = _
  read_entry

/-- The centre weight `kernel[13]`. -/
theorem entry_centre_weight (c : Dev nD) :
    W4 m ρ c (Proc.devRef .tc main_v1) = val_main_v19 (F := Ideal) (m ((c : Thread nD τ).loc main_arg1)) := by
  show StableHlo.after hostOps0_3 (StableHlo.after hostOps0_2 (StableHlo.after hostOps0_1 (StableHlo.after hostOps0 (W0 m ρ c)))) (Proc.devRef .tc main_v1) = _
  unfold val_main_v19
  read_entry

/-- The 26 offset weights `kernel[:13] ++ kernel[14:]`. -/
theorem entry_offset_weights (c : Dev nD) :
    W4 m ρ c (Proc.devRef .tc main_v4) = val_main_v2 (F := Ideal) (m ((c : Thread nD τ).loc main_arg1)) := by
  show StableHlo.after hostOps0_3 (StableHlo.after hostOps0_2 (StableHlo.after hostOps0_1 (StableHlo.after hostOps0 (W0 m ρ c)))) (Proc.devRef .tc main_v4) = _
  unfold val_main_v2
  read_entry

/-- The masked gathered rows, padded with 1026 zero rows per offset to 8 whole row blocks. -/
abbrev paddedRows (x0 : S200000x64.Idx → EReal) (x2 : S26x39934.Idx → BitVec 32) : S26x40960x64.Idx → EReal :=
  pad S26x40960x64 ![0, 0, 0] ![0, 1026, 0] ![0, 0, 0] (val_main_v16 (F := Ideal) x0 x2) (sitofp (F := Ideal) .f32 (constantI S_ 32 0#32))
    pads_S26x39934x64_S26x40960x64_000_010260_000 h_S_

theorem entry_rows (c : Dev nD) :
    W4 m ρ c (Proc.devRef .tc main_v19) = paddedRows (m ((c : Thread nD τ).loc main_arg0)) (m ((c : Thread nD τ).loc main_arg2)) := by
  show StableHlo.after hostOps0_3 (StableHlo.after hostOps0_2 (StableHlo.after hostOps0_1 (StableHlo.after hostOps0 (W0 m ρ c)))) (Proc.devRef .tc main_v19) = _
  unfold paddedRows val_main_v16
  read_entry

/-! ## Through the regions: what neither region's arrays nor the slice between them touch -/

theorem exit_mask (c : Dev nD) :
    W7 m ρ c (Proc.devRef .tc main_v6) = val_main_v4 (F := Ideal) (m ((c : Thread nD τ).loc main_arg2)) :=
  calc W7 m ρ c (Proc.devRef .tc main_v6)
    _ = W6 m ρ c (Proc.devRef .tc main_v6) := W7_of_ne m ρ c main_v6 (by decide)
    _ = W5 m ρ c (Proc.devRef .tc main_v6) := by kept_by_slice
    _ = W4 m ρ c (Proc.devRef .tc main_v6) := W5_of_ne m ρ c main_v6 (by decide)
    _ = _ := entry_mask m ρ c

theorem exit_omap (c : Dev nD) :
    W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := by kept_by_slice
    _ = W4 m ρ c (Proc.devRef .tc main_arg3) := W5_of_ne m ρ c main_arg3 (by decide)
    _ = _ := entry_omap m ρ c

theorem mid_feats (c : Dev nD) :
    W6 m ρ c (Proc.devRef .tc main_arg0) = m ((c : Thread nD τ).loc main_arg0) :=
  calc W6 m ρ c (Proc.devRef .tc main_arg0)
    _ = W5 m ρ c (Proc.devRef .tc main_arg0) := by kept_by_slice
    _ = W4 m ρ c (Proc.devRef .tc main_arg0) := W5_of_ne m ρ c main_arg0 (by decide)
    _ = _ := entry_feats m ρ c

theorem mid_centre_weight (c : Dev nD) :
    W6 m ρ c (Proc.devRef .tc main_v1) = val_main_v19 (F := Ideal) (m ((c : Thread nD τ).loc main_arg1)) :=
  calc W6 m ρ c (Proc.devRef .tc main_v1)
    _ = W5 m ρ c (Proc.devRef .tc main_v1) := by kept_by_slice
    _ = W4 m ρ c (Proc.devRef .tc main_v1) := W5_of_ne m ρ c main_v1 (by decide)
    _ = _ := entry_centre_weight m ρ c

/-! ## What the regions leave -/

/-- The first region's output: the padded masked gathered rows times the offset weights. -/
theorem offsets_array (c : Dev nD) :
    W5 m ρ c (Proc.devRef .tc main_v20)
      = Offsets.prod (paddedRows (m ((c : Thread nD τ).loc main_arg0)) (m ((c : Thread nD τ).loc main_arg2)))
          (val_main_v2 (F := Ideal) (m ((c : Thread nD τ).loc main_arg1))) :=
  (W5_arr m ρ c 2).trans ((Offsets.final (V4 m ρ) c).trans
    (congrArg₂ Offsets.prod (entry_rows m ρ c) (entry_offset_weights m ρ c)))

/-- Its first 39934 rows per offset, as the second region's exit finds them. -/
theorem offsets_out (c : Dev nD) :
    W7 m ρ c (Proc.devRef .tc main_v21)
      = extractStridedSlice S26x39934x64 ![0, 0, 0]
          (Offsets.prod (paddedRows (m ((c : Thread nD τ).loc main_arg0)) (m ((c : Thread nD τ).loc main_arg2)))
            (val_main_v2 (F := Ideal) (m ((c : Thread nD τ).loc main_arg1))))
          slices_S26x40960x64_S26x39934x64_0_0_0 := by
  rw [W7_of_ne m ρ c main_v21 (by decide), ← offsets_array m ρ c]
  show StableHlo.after hostOps1 (W5 m ρ c) (Proc.devRef .tc main_v21) = _
  after_results_simp

/-- The second region's output: the features times the centre weight. -/
theorem centre_out (c : Dev nD) :
    W7 m ρ c (Proc.devRef .tc main_v22)
      = Centre.prod (m ((c : Thread nD τ).loc main_arg0)) (val_main_v19 (F := Ideal) (m ((c : Thread nD τ).loc main_arg1))) :=
  (W7_arr m ρ c 2).trans ((Centre.final (V6 m ρ) c).trans
    (congrArg₂ Centre.prod (mid_feats m ρ c) (mid_centre_weight m ρ c)))

/-! ## The result -/

/-- THE RESULT ARRAY at the last boundary: the scatter-add, at the wrapped flat output rows, of the reshaped offset
    products onto the centre product. -/
theorem result (c : Dev nD) :
    W10 m ρ c (Proc.devRef .tc main_v32)
      = Host.scatterAdd (F := Ideal) (φ := .f32) scatter_S200000x64_S1038284x1_S1038284x64_1_0_0_1
          (Centre.prod (m ((c : Thread nD τ).loc main_arg0)) (val_main_v19 (F := Ideal) (m ((c : Thread nD τ).loc main_arg1))))
          (val_main_v29 (F := Ideal) (m ((c : Thread nD τ).loc main_arg2)) (m ((c : Thread nD τ).loc main_arg3)))
          (shapeCast S1038284x64
            (extractStridedSlice S26x39934x64 ![0, 0, 0]
              (Offsets.prod (paddedRows (m ((c : Thread nD τ).loc main_arg0)) (m ((c : Thread nD τ).loc main_arg2)))
                (val_main_v2 (F := Ideal) (m ((c : Thread nD τ).loc main_arg1))))
              slices_S26x40960x64_S26x39934x64_0_0_0)
            shapeCasts_S26x39934x64_S1038284x64) := by
  show StableHlo.after hostOps2_2 (StableHlo.after hostOps2_1 (StableHlo.after hostOps2 (W7 m ρ c))) (Proc.devRef .tc main_v32) = _
  after_results_simp
  simp only [TRef.ofBuf, TRef.toBuf, cast_eq]
  rw [centre_out m ρ c, offsets_out m ρ c, exit_mask m ρ c, exit_omap m ρ c]
  rfl

end Cert.KernelIdeal.Result

end
-- ==== Proof.Bridge.lean ====
/-
  The idealized kernel's result is the reference's, as one function of the four arguments.

  Both programs end in the same scatter-add at the same wrapped flat output rows. Its operand is `feats @ kernel[13]`
  on both sides: the kernel's centre region tiles the 200000 rows by 8000 and multiplies each tile, the reference
  contracts the whole array at once, and entry (n, o) is the same sum over the 64 channels. Its updates are, reshaped,
  the 26 offset products: the kernel pads the masked gathered rows from 39934 to 40960 rows per offset with zeros,
  multiplies 5120-row tiles, and slices rows 0 … 39933 back out, so a kept entry (g, p, o) with p < 39934 reads only
  unpadded rows and is the reference's batched contraction `∑ k, rows[g, p, k] · w[g, k, o]` there. No law of the
  extended reals beyond reading the same sum is used, so the finiteness precondition is not opened.
-/
import proofs.«409391_j65807488909370_4_alg».proof.Proof.KernelValue
import Idealize.ShloMosaic.Lib.KernelVsHost

set_option maxRecDepth 16384

noncomputable section

open Idealize.ShloMosaic Idealize.ShloMosaic.TcCoe Idealize.SL.Sem Idealize.ShloMosaic.ValueIdx

namespace Cert.Proof.Bridge

open Cert.ReferenceIdeal Cert.ReferenceIdeal.Read
open Cert.KernelIdeal.Result (paddedRows)

/-- The centre region's array is the reference's `feats @ kernel[13]`. -/
theorem centre_eq (x0 : (⟨S200000x64, .f32⟩ : BufTy).Contents (Elt Ideal)) (x1 : (⟨S27x64x64, .f32⟩ : BufTy).Contents (Elt Ideal)) :
    Cert.KernelIdeal.Centre.prod x0 (val_main_v19 (F := Ideal) x1) = val_main_v20 (F := Ideal) x0 x1 := by
  funext i
  rw [val_main_v20_apply]
  unfold Cert.KernelIdeal.Centre.prod
  refine Finset.sum_congr rfl fun k _ => ?_
  refine congrArg₂ (· * ·) (congrArg x0 ?_) (congrArg (val_main_v19 (F := Ideal) x1) ?_)
  · funext a; match a with | ⟨0, _⟩ => rfl | ⟨1, _⟩ => rfl
  · funext a; match a with | ⟨0, _⟩ => rfl | ⟨1, _⟩ => rfl

/-- The kept rows of the offset region's array are the reference's batched contraction of the masked gathered rows
    with the offset weights: a kept row index is below 39934, inside the unpadded rows. -/
theorem offsets_eq (x0 : (⟨S200000x64, .f32⟩ : BufTy).Contents (Elt Ideal)) (x1 : (⟨S27x64x64, .f32⟩ : BufTy).Contents (Elt Ideal))
    (x2 : (⟨S26x39934, .i32⟩ : BufTy).Contents (Elt Ideal)) :
    extractStridedSlice Cert.KernelIdeal.S26x39934x64 ![0, 0, 0]
        (Cert.KernelIdeal.Offsets.prod (paddedRows x0 x2) (val_main_v2 (F := Ideal) x1))
        Cert.KernelIdeal.Facts₀.slices_S26x40960x64_S26x39934x64_0_0_0
      = val_main_v17 (F := Ideal) x0 x1 x2 := by
  funext i
  rw [val_main_v17_apply]
  have h0 : (i 0).val < 26 := (i 0).isLt
  have h1 : (i 1).val < 39934 := (i 1).isLt
  have h2 : (i 2).val < 64 := (i 2).isLt
  rw [extractStridedSlice_apply ![0, 0, 0] _ _ i
    (ix3 (⟨(i 0).val, h0⟩ : Fin 26) (⟨(i 1).val, by omega⟩ : Fin 40960) (⟨(i 2).val, h2⟩ : Fin 64))
    (fun a => match a with
      | ⟨0, _⟩ => by show (i 0).val = 0 + (i 0).val; omega
      | ⟨1, _⟩ => by show (i 1).val = 0 + (i 1).val; omega
      | ⟨2, _⟩ => by show (i 2).val = 0 + (i 2).val; omega)]
  unfold Cert.KernelIdeal.Offsets.prod
  refine Finset.sum_congr rfl fun k _ => ?_
  refine congrArg₂ (· * ·) ?_ (congrArg (val_main_v2 (F := Ideal) x1) ?_)
  · unfold paddedRows
    exact pad_apply_of_inside ![0, 0, 0] ![0, 1026, 0] ![0, 0, 0] _ _ _ _ _ (lidx_main_v17 i k)
      (fun a => match a with
        | ⟨0, _⟩ => by show (i 0).val = 0 + (i 0).val * (0 + 1); omega
        | ⟨1, _⟩ => by show (i 1).val = 0 + (i 1).val * (0 + 1); omega
        | ⟨2, _⟩ => by show k.val = 0 + k.val * (0 + 1); omega)
  · funext a; match a with | ⟨0, _⟩ => rfl | ⟨1, _⟩ => rfl | ⟨2, _⟩ => rfl

/-- THE KERNEL'S RESULT ARRAY at the last boundary IS THE REFERENCE'S RESULT STAGE of the same four arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W10 m ρ c (Proc.devRef .tc Cert.KernelIdeal.main_v32)
      = val_main_v30 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.KernelIdeal.Result.result m ρ c, centre_eq, offsets_eq]
  rfl

end Cert.Proof.Bridge

end
-- ==== Proof.lean ====
/-
  Submanifold sparse 3-D convolution (gather, per-offset product, scatter-add): the Pallas program against its jnp
  reference, over the extended reals.

  Both programs compute, from features `feats : [200000, 64]`, weights `kernel : [27, 64, 64]` and the neighbour maps
  `imap, omap : [26, 39934]`,
      out = (feats @ kernel[13]).at[where(imap ≥ 0, omap, 0).reshape(-1)].add(y.reshape(-1, 64)),
      y[g, p, :] = (feats[where(imap ≥ 0, imap, 0)][g, p, :] · [imap[g, p] ≥ 0]) @ (kernel[:13] ++ kernel[14:])[g].
  The gather, the mask, the index wrap and the scatter-add are the same host operations in both. The Pallas program
  computes `feats @ kernel[13]` in a 25-point region over 8000-row tiles, and `y` in a 26 × 8-point region over 5120-row
  tiles of the rows zero-padded from 39934 to 40960 per offset, slicing the padding off afterwards; the reference
  contracts whole arrays. At the ideal instance a tile's product entry and the whole contraction's entry are the same
  sum over the 64 channels, and a kept row never reads the padding, so the two results are one function of the
  arguments (Proof/Bridge.lean); no law that needs finiteness is used. The ideal pass rewrote nothing, so `preserves`
  is `True`. The frames are the generated ones; the reference's is its generated run with the result dropped.
-/
import proofs.«409391_j65807488909370_4_alg».proof.Defs
import proofs.«409391_j65807488909370_4_alg».proof.Proof.Gen.Kernel
import proofs.«409391_j65807488909370_4_alg».proof.Proof.Gen.Kernel.Skeleton
import proofs.«409391_j65807488909370_4_alg».proof.Proof.Gen.Kernel.Launch
import proofs.«409391_j65807488909370_4_alg».proof.Proof.Gen.Kernel.Points
import proofs.«409391_j65807488909370_4_alg».proof.Proof.Gen.Kernel.Frame
import proofs.«409391_j65807488909370_4_alg».proof.Proof.Gen.KernelIdeal
import proofs.«409391_j65807488909370_4_alg».proof.Proof.Gen.KernelIdeal.Skeleton
import proofs.«409391_j65807488909370_4_alg».proof.Proof.Gen.KernelIdeal.Launch
import proofs.«409391_j65807488909370_4_alg».proof.Proof.Gen.KernelIdeal.Points
import proofs.«409391_j65807488909370_4_alg».proof.Proof.Gen.KernelIdeal.Frame
import proofs.«409391_j65807488909370_4_alg».proof.Proof.Gen.ReferenceIdeal
import proofs.«409391_j65807488909370_4_alg».proof.Proof.Gen.Pre_finite_inputs
import proofs.«409391_j65807488909370_4_alg».proof.Proof.Gen.ReferenceIdeal.Run
import proofs.«409391_j65807488909370_4_alg».proof.Proof.Gen.ReferenceIdeal.Read
import proofs.«409391_j65807488909370_4_alg».proof.Proof.KernelRun
import proofs.«409391_j65807488909370_4_alg».proof.Proof.Bridge
import Idealize.ShloMosaic.Adequacy
import Idealize.ShloMosaic.Init

noncomputable section

namespace Cert.Proof

open Idealize.ShloMosaic Idealize.SL.Sem

/-- The printed kernel runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result array at the reference's result stage
    of the kernel's arguments: the kernel by its run read back through its two regions, the reference by its own
    run with the arguments' agreement rewritten. -/
theorem algebraic : Cert.algebraic_KernelIdeal_ReferenceIdeal := by
  intro m ρ m' ρ' _ hagree
  refine ⟨fun c => Cert.ReferenceIdeal.Read.val_main_v30 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Proof.Bridge.kernel_result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
